-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S80000x256 : Shape := ⟨2, ![80000, 256]⟩
abbrev S2x1600000 : Shape := ⟨2, ![2, 1600000]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S80000x256 : S_.BroadcastsInDim S80000x256 (![] : Fin 0 → Fin S80000x256.rank)
  reducesTo_S80000x256_S_d0_1 : S80000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S256x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S20000x256 .f32) (main_arg1 : FVec F S80000x256 .f32) (main_arg2 : IVec S2x1600000 32) (main_arg3 : IVec S2x1000000 32) (main_arg4 : FVec F S256x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S80000x256 .f32 := Host.absf main_arg1
  let main_cst_0 : FVec F S_ .f32 := constant S_ .f32 0x7F800000#32
  let main_v5 : FVec F S80000x256 .f32 := broadcastInDim S80000x256 ![] bcast_S_S80000x256 main_cst_0
  let main_v6 : IVec S80000x256 1 := cmpf .olt main_v4 main_v5
  let main_c_1 : IVec S_ 1 := constantI S_ 1 1#1
  let main_v7 : IVec S_ 1 := (fun x v => Host.reduce IntOp.andi x v reducesTo_S80000x256_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S20000x256 : Shape := ⟨2, ![20000, 256]⟩
abbrev S80000x256 : Shape := ⟨2, ![80000, 256]⟩
abbrev S2x1600000 : Shape := ⟨2, ![2, 1600000]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S1x128 : Shape := ⟨2, ![1, 128]⟩
abbrev S20000x128 : Shape := ⟨2, ![20000, 128]⟩
abbrev S5000x256 : Shape := ⟨2, ![5000, 256]⟩
abbrev S5000x128 : Shape := ⟨2, ![5000, 128]⟩
abbrev S80000x128 : Shape := ⟨2, ![80000, 128]⟩
abbrev S8000x256 : Shape := ⟨2, ![8000, 256]⟩
abbrev S8000x128 : Shape := ⟨2, ![8000, 128]⟩
abbrev S100000x128 : Shape := ⟨2, ![100000, 128]⟩
abbrev S10000x128 : Shape := ⟨2, ![10000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩
abbrev S10000x1 : Shape := ⟨2, ![10000, 1]⟩
abbrev S10000 : Shape := ⟨1, ![10000]⟩

abbrev nBuf : Space → Nat
  | .hbm => 103
  | .vmem => 28
  | .smem => 0
  | _ => 0

abbrev bufTy : (tb : Table) → Fin (tcTables nBuf tb) → BufTy
  | .hbm, ⟨0, _⟩ => ⟨S20000x256, .f32⟩
  | .hbm, ⟨1, _⟩ => ⟨S80000x256, .f32⟩
  | .hbm, ⟨2, _⟩ => ⟨S2x1600000, .i32⟩
  | .hbm, ⟨3, _⟩ => ⟨S2x1000000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S20000x128, .f32⟩
  | .hbm, ⟨14, _⟩ => ⟨S80000x128, .f32⟩
  | .hbm, ⟨15, _⟩ => ⟨S100000x128, .f32⟩
  | .hbm, ⟨16, _⟩ => ⟨S100000x128, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S_, .f32⟩
  | .hbm, ⟨32, _⟩ => ⟨S1600000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000, .f32⟩
  | .hbm, ⟨56, _⟩ => ⟨S1600000, .f32⟩
  | .hbm, ⟨57, _⟩ => ⟨S1600000x1, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S1600000x128, .f32⟩
  | .hbm, ⟨68, _⟩ => ⟨S1600000x128, .f32⟩
  | .hbm, ⟨69, _⟩ => ⟨S_, .f32⟩
  | .hbm, ⟨70, _⟩ => ⟨S100000x128, .f32⟩
  | .hbm, ⟨71, _⟩ => ⟨S1600000x1, .i32⟩
  | .hbm, ⟨72, _⟩ => ⟨S100000x128, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S1x1000000, .i32⟩
  | .hbm, ⟨80, _⟩ => ⟨S1000000, .i32⟩
  | .hbm, ⟨81, _⟩ => ⟨S1x1000000, .i32⟩
  | .hbm, ⟨82, _⟩ => ⟨S1000000, .i32⟩
  | .hbm, ⟨83, _⟩ => ⟨S_, .i32⟩
  | .hbm, ⟨84, _⟩ => ⟨S1000000, .i32⟩
  | .hbm, ⟨85, _⟩ => ⟨S1000000, .i1⟩
  | .hbm, ⟨86, _⟩ => ⟨S_, .i32⟩
  | .hbm, ⟨87, _⟩ => ⟨S1000000, .i32⟩
  | .hbm, ⟨88, _⟩ => ⟨S1000000, .i32⟩
  | .hbm, ⟨89, _⟩ => ⟨S1000000, .i32⟩
  | .hbm, ⟨90, _⟩ => ⟨S1000000x1, .i32⟩
  | .hbm, ⟨91, _⟩ => ⟨S1000000x128, .f32⟩
  | .hbm, ⟨92, _⟩ => ⟨S_, .i32⟩
  | .hbm, ⟨93, _⟩ => ⟨S1000000, .i32⟩
  | .hbm, ⟨94, _⟩ => ⟨S1000000, .i1⟩
  | .hbm, ⟨95, _⟩ => ⟨S_, .i32⟩
  | .hbm, ⟨96, _⟩ => ⟨S1000000, .i32⟩
  | .hbm, ⟨97, _⟩ => ⟨S1000000, .i32⟩
  | .hbm, ⟨98, _⟩ => ⟨S1000000, .i32⟩
  | .hbm, ⟨99, _⟩ => ⟨S1000000x1, .i32⟩
  | .hbm, ⟨100, _⟩ => ⟨S1000000x128, .f32⟩
  | .hbm, ⟨101, _⟩ => ⟨S1000000x1, .f32⟩
  | .hbm, ⟨102, _⟩ => ⟨S1000000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S8000x256, .f32⟩
  | .local _ .vmem, ⟨7, _⟩ => ⟨S8000x256, .f32⟩
  | .local _ .vmem, ⟨8, _⟩ => ⟨S256x128, .f32⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x128, .f32⟩
  | .local _ .vmem, ⟨25, _⟩ => ⟨S10000x128, .f32⟩
  | .local _ .vmem, ⟨26, _⟩ => ⟨S10000x1, .f32⟩
  | .local _ .vmem, ⟨27, _⟩ => ⟨S10000x1, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_c_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_12 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg1_1 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S8000x256_S8000x256_0_0 : ∀ a, (![0, 0] : Fin 2 → Nat) a + S8000x256.size a ≤ S8000x256.size a
  h_S8000x256 : 0 < S8000x256.numel
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  concatenates_S20000x128_S80000x128_S100000x128_d0 : Shape.Concatenates [S20000x128, S80000x128] S100000x128 0
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  broadcasts_S1x128_S10000x128 : S1x128.Broadcasts S10000x128
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S1000000x1_S1000000 : S1000000x1.ShapeCasts S1000000
  dot_S5000x256_S256x128_S5000x128_1_0_0_1_n_n_wf : DotDims.WF S5000x256 S256x128 S5000x128 [1] [0] [0] [1] [] []
  dot_S8000x256_S256x128_S8000x128_1_0_0_1_n_n_wf : DotDims.WF S8000x256 S256x128 S8000x128 [1] [0] [0] [1] [] []
  dot_S10000x128_S128x128_S10000x128_1_0_0_1_n_n_wf : DotDims.WF S10000x128 S128x128 S10000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1000000x1_S1000000x128_1_0_n_n_0_1_1128_wf : GatherDims.WF S100000x128 S1000000x1 S1000000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S20000x256.size a
  hwx0_0 : ∀ i : grid0.Coords, EltTy.bits .f32 = 32 ∨ (Rect.block (s := S20000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S20000x128.size a
  hwx0_3 : ∀ i : grid0.Coords, EltTy.bits .f32 = 32 ∨ (Rect.block (s := S20000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x256.size a ≤ S80000x256.size a
  hwx1_0 : ∀ i : grid1.Coords, EltTy.bits .f32 = 32 ∨ (Rect.block (s := S80000x256) S8000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x128.size a ≤ S80000x128.size a
  hwx1_3 : ∀ i : grid1.Coords, EltTy.bits .f32 = 32 ∨ (Rect.block (s := S80000x128) S8000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S1000000x128.size a
  hwx4_0 : ∀ i : grid4.Coords, EltTy.bits .f32 = 32 ∨ (Rect.block (s := S1000000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S1000000x128.size a
  hwx4_1 : ∀ i : grid4.Coords, EltTy.bits .f32 = 32 ∨ (Rect.block (s := S1000000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S1000000x1.size a
  hwx4_2 : ∀ i : grid4.Coords, EltTy.bits .f32 = 32 ∨ (Rect.block (s := S1000000x1) S10000x1.size (cc4_transform_2 i) (hinb4_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S8000x256_S256x128_S8000x128_1_0_0_1_n_n : DotDims S8000x256 S256x128 S8000x128 where
  lhsContracting := [1]
  rhsContracting := [0]
  lhsNonContracting := [0]
  rhsNonContracting := [1]
  lhsBatch := []
  rhsBatch := []
  wf := dot_S8000x256_S256x128_S8000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S8000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v55) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v75) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S20000x256 : Shape := ⟨2, ![20000, 256]⟩
abbrev S80000x256 : Shape := ⟨2, ![80000, 256]⟩
abbrev S2x1600000 : Shape := ⟨2, ![2, 1600000]⟩
abbrev S2x1000000 : Shape := ⟨2, ![2, 1000000]⟩
abbrev S256x128 : Shape := ⟨2, ![256, 128]⟩
abbrev S128 : Shape := ⟨1, ![128]⟩
abbrev S128x128 : Shape := ⟨2, ![128, 128]⟩
abbrev S20000x128 : Shape := ⟨2, ![20000, 128]⟩
abbrev S1x128 : Shape := ⟨2, ![1, 128]⟩
abbrev S_ : Shape := ⟨0, ![]⟩
abbrev S80000x128 : Shape := ⟨2, ![80000, 128]⟩
abbrev S100000x128 : Shape := ⟨2, ![100000, 128]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x1000000 : Shape := ⟨2, ![1, 1000000]⟩
abbrev S1000000 : Shape := ⟨1, ![1000000]⟩
abbrev S1000000x1 : Shape := ⟨2, ![1000000, 1]⟩
abbrev S1000000x128 : Shape := ⟨2, ![1000000, 128]⟩

abbrev nBuf : Space → Nat
  | .hbm => 115
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S80000x256, .f32⟩
  | .hbm, ⟨2, _⟩ => ⟨S2x1600000, .i32⟩
  | .hbm, ⟨3, _⟩ => ⟨S2x1000000, .i32⟩
  | .hbm, ⟨4, _⟩ => ⟨S256x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S20000x128, .f32⟩
  | .hbm, ⟨11, _⟩ => ⟨S1x128, .f32⟩
  | .hbm, ⟨12, _⟩ => ⟨S20000x128, .f32⟩
  | .hbm, ⟨13, _⟩ => ⟨S20000x128, .f32⟩
  | .hbm, ⟨14, _⟩ => ⟨S_, .f32⟩
  | .hbm, ⟨15, _⟩ => ⟨S20000x128, .f32⟩
  | .hbm, ⟨16, _⟩ => ⟨S20000x128, .f32⟩
  | .hbm, ⟨17, _⟩ => ⟨S80000x128, .f32⟩
  | .hbm, ⟨18, _⟩ => ⟨S1x128, .f32⟩
  | .hbm, ⟨19, _⟩ => ⟨S80000x128, .f32⟩
  | .hbm, ⟨20, _⟩ => ⟨S80000x128, .f32⟩
  | .hbm, ⟨21, _⟩ => ⟨S_, .f32⟩
  | .hbm, ⟨22, _⟩ => ⟨S80000x128, .f32⟩
  | .hbm, ⟨23, _⟩ => ⟨S80000x128, .f32⟩
  | .hbm, ⟨24, _⟩ => ⟨S100000x128, .f32⟩
  | .hbm, ⟨25, _⟩ => ⟨S1x1600000, .i32⟩
  | .hbm, ⟨26, _⟩ => ⟨S1600000, .i32⟩
  | .hbm, ⟨27, _⟩ => ⟨S1x1600000, .i32⟩
  | .hbm, ⟨28, _⟩ => ⟨S1600000, .i32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S_, .f32⟩
  | .hbm, ⟨41, _⟩ => ⟨S1600000, .f32⟩
  | .hbm, ⟨42, _⟩ => ⟨S100000, .f32⟩
  | .hbm, ⟨43, _⟩ => ⟨S100000, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000, .f32⟩
  | .hbm, ⟨62, _⟩ => ⟨S1600000, .f32⟩
  | .hbm, ⟨63, _⟩ => ⟨S1600000x1, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S1x1000000, .i32⟩
  | .hbm, ⟨91, _⟩ => ⟨S1000000, .i32⟩
  | .hbm, ⟨92, _⟩ => ⟨S_, .i32⟩
  | .hbm, ⟨93, _⟩ => ⟨S1000000, .i32⟩
  | .hbm, ⟨94, _⟩ => ⟨S1000000, .i1⟩
  | .hbm, ⟨95, _⟩ => ⟨S_, .i32⟩
  | .hbm, ⟨96, _⟩ => ⟨S1000000, .i32⟩
  | .hbm, ⟨97, _⟩ => ⟨S1000000, .i32⟩
  | .hbm, ⟨98, _⟩ => ⟨S1000000, .i32⟩
  | .hbm, ⟨99, _⟩ => ⟨S1000000x1, .i32⟩
  | .hbm, ⟨100, _⟩ => ⟨S1000000x128, .f32⟩
  | .hbm, ⟨101, _⟩ => ⟨S1x1000000, .i32⟩
  | .hbm, ⟨102, _⟩ => ⟨S1000000, .i32⟩
  | .hbm, ⟨103, _⟩ => ⟨S_, .i32⟩
  | .hbm, ⟨104, _⟩ => ⟨S1000000, .i32⟩
  | .hbm, ⟨105, _⟩ => ⟨S1000000, .i1⟩
  | .hbm, ⟨106, _⟩ => ⟨S_, .i32⟩
  | .hbm, ⟨107, _⟩ => ⟨S1000000, .i32⟩
  | .hbm, ⟨108, _⟩ => ⟨S1000000, .i32⟩
  | .hbm, ⟨109, _⟩ => ⟨S1000000, .i32⟩
  | .hbm, ⟨110, _⟩ => ⟨S1000000x1, .i32⟩
  | .hbm, ⟨111, _⟩ => ⟨S1000000x128, .f32⟩
  | .hbm, ⟨112, _⟩ => ⟨S1000000x128, .f32⟩
  | .hbm, ⟨113, _⟩ => ⟨S_, .f32⟩
  | .hbm, ⟨114, _⟩ => ⟨S1000000, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_1 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_c_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_6 : Ref sig .tc := ⟨.hbm, 64, rfl⟩
abbrev main_v42 : Ref sig .tc := ⟨.hbm, 65, rfl⟩
abbrev main_v43 : Ref sig .tc := ⟨.hbm, 66, rfl⟩
abbrev main_c_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call2_cst : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_9 : Ref sig .tc := ⟨.hbm, 92, rfl⟩
abbrev main_v65 : Ref sig .tc := ⟨.hbm, 93, rfl⟩
abbrev main_v66 : Ref sig .tc := ⟨.hbm, 94, rfl⟩
abbrev main_c_10 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_11 : Ref sig .tc := ⟨.hbm, 103, rfl⟩
abbrev main_v74 : Ref sig .tc := ⟨.hbm, 104, rfl⟩
abbrev main_v75 : Ref sig .tc := ⟨.hbm, 105, rfl⟩
abbrev main_c_12 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_13 : Ref sig .tc := ⟨.hbm, 113, rfl⟩
abbrev main_v82 : Ref sig .tc := ⟨.hbm, 114, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S1x128_S80000x128_0_1 : S1x128.BroadcastsInDim S80000x128 (![0, 1] : Fin 2 → Fin S80000x128.rank)
  bcast_S_S80000x128 : S_.BroadcastsInDim S80000x128 (![] : Fin 0 → Fin S80000x128.rank)
  concatenates_S20000x128_S80000x128_S100000x128_d0 : Shape.Concatenates [S20000x128, S80000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  reducesTo_S1000000x128_S1000000_d1 : S1000000x128.ReducesTo [1] S1000000
  h_S_ : 0 < S_.numel
  dot_S20000x256_S256x128_S20000x128_1_0_0_1_n_n_wf : DotDims.WF S20000x256 S256x128 S20000x128 [1] [0] [0] [1] [] []
  dot_S80000x256_S256x128_S80000x128_1_0_0_1_n_n_wf : DotDims.WF S80000x256 S256x128 S80000x128 [1] [0] [0] [1] [] []
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S1000000x1_S1000000x128_1_0_n_n_0_1_1128_wf : GatherDims.WF S100000x128 S1000000x1 S1000000x128 [1] [0] [] [0] [] 1 ![1, 128]

variable [Facts₀]

def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S80000x256_S256x128_S80000x128_1_0_0_1_n_n : DotDims S80000x256 S256x128 S80000x128 where
  lhsContracting := [1]
  rhsContracting := [0]
  lhsNonContracting := [0]
  rhsNonContracting := [1]
  lhsBatch := []
  rhsBatch := []
  wf := dot_S80000x256_S256x128_S80000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf

class Facts : Prop extends Facts₀ where

variable [Facts]
-- ==== Proof.Spec.lean ====
/-
  The dense stages of the graph convolution, as whole-array functions read index by index over the extended reals.
  A linear layer: entry (r, c) is the sum over k of x(r, k) · w(k, c), plus the bias row's entry c, clamped below at
  zero. The plain product, the bias-and-clamp pass, and the edge score (the inner product of two rows) likewise.
  Each depends on row r of its row operand only, which is why a kernel that walks the rows block by block and a
  program that takes the whole array at once compute the same array.
-/
import Idealize.ShloMosaic.Lib.ValueIdx
import Idealize.ShloMosaic.PureOps.Ideal

noncomputable section

namespace Cert.Spec

open Idealize.ShloMosaic Idealize.ShloMosaic.ValueIdx

/-- A rank-2 array of extended reals. -/
abbrev Arr2 (a b : ℕ) : Type := (⟨2, ![a, b]⟩ : Shape).Idx → EReal

/-- Zero, as the float word the programs spell it with. -/
abbrev zeroF : EReal := Ideal.ofBits .f32 0x00000000#32

/-- Rows times weights. -/
def rowsMul {M K N : ℕ} (x : Arr2 M K) (w : Arr2 K N) : Arr2 M N :=
  fun i => ∑ k : Fin K, x (ix2 (i 0) k) * w (ix2 k (i 1))

/-- Add the bias row to every row and clamp below at zero. -/
def biasClamp {M N : ℕ} (a : Arr2 M N) (b : Arr2 1 N) : Arr2 M N :=
  fun i => max (a i + b (ix2 0 (i 1))) zeroF

/-- A linear layer with its clamp: rows times weights, plus the bias row, clamped below at zero. -/
def linClamp {M K N : ℕ} (x : Arr2 M K) (w : Arr2 K N) (b : Arr2 1 N) : Arr2 M N :=
  biasClamp (rowsMul x w) b

/-- The inner product of row r of a with row r of b, as a one-column array. -/
def rowInner {M N : ℕ} (a b : Arr2 M N) : Arr2 M 1 :=
  fun i => ∑ k : Fin N, a (ix2 (i 0) k) * b (ix2 (i 0) k)

end Cert.Spec

end
-- ==== Proof.Reg0.lean ====
/-
  The first pallas_call: a linear layer with its clamp. A [20000, 256] array times [256, 128] weights into a zero
  accumulator, plus the bias row, clamped below at zero; four blocks of 5000 rows. Entry (p, q) of block t is
  max (Σ_k x(5000·t + p, k) · w(k, q) + b(0, q)) 0: row 5000·t + p of the whole-array layer. The blocks tile the array,
  so the array ends holding the whole layer.
-/
import proofs.«156425_j60722247631463_1_alg».proof.Proof.Gen.KernelIdeal.Frame
import proofs.«156425_j60722247631463_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, at their literal types. -/
abbrev xArr (c : Dev nD) : Arr2 20000 256 := V c main_arg0
abbrev wArr (c : Dev nD) : Arr2 256 128 := V c main_arg4
abbrev bArr (c : Dev nD) : Arr2 1 128 := V c main_v0

/-- The product's operand indices at output entry i and contraction index q, axis by axis. -/
theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The block product into a zero accumulator at entry (p, q): the sum over k of the row operand at (p, k) times the
    weights at (k, q). -/
theorem mm_apply (x0 : FVec Ideal S5000x256 .bf16) (x1 : FVec Ideal S256x128 .bf16) (p : Fin 5000) (q : Fin 128) :
    matmul dot_S5000x256_S256x128_S5000x128_1_0_0_1_n_n none x0 x1 (constant S5000x128 .f32 0x00000000#32) (ix2 p q) = ∑ k : Fin 256, x0 (ix2 p k) * x1 (ix2 k q) := by
  refine (Ideal.matmul_constant_zero_apply dot_S5000x256_S256x128_S5000x128_1_0_0_1_n_n none x0 x1 (ix2 p q)).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The body's arithmetic at entry (p, q) of a block: the row of the block times column q of the weights, plus the
    bias row's entry q, clamped below at zero (the change of float format is the identity). -/
theorem pay_apply (x0 : Vec Ideal S5000x256 .f32) (x1 : Vec Ideal S256x128 .f32) (x2 : Vec Ideal S1x128 .f32) (p : Fin 5000) (q : Fin 128) :
    k0_pay1 (F := Ideal) x0 x1 x2 (ix2 p q) = max ((∑ k : Fin 256, x0 (ix2 p k) * x1 (ix2 k q)) + x2 (ix2 (0 : Fin 1) q)) zeroF := by
  unfold k0_pay1
  simp only [maximumf_apply, addf_apply, shapeCast_self, broadcast_apply]
  rw [broadcastTo_1b_ab_apply]
  refine congrArg (fun s => max (s + x2 (ix2 (0 : Fin 1) q)) zeroF) ?_
  exact mm_apply (truncf .bf16 x0 bitsLt_bf16_f32) (truncf .bf16 x1 bitsLt_bf16_f32) p q

/-- The index maps over the grid: the row operand and the output move together, one block of rows per point; the
    weights and the bias row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array linear layer of the arrays the region finds. -/
theorem flushed_eq (c : Dev nD) (t : Fin cfg0.N) :
    (dat0 V c).flushed 3 t = ((cfg0.win 3).blk t).view.read (Elt Ideal) (linClamp (V c main_arg0) (V c main_arg4) (V c main_v0)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S1x128) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  refine (pay_apply (iblk0 V c 0 t) (iblk0 V c 1 t) (iblk0 V c 2 t) p q).trans ?_
  show max ((∑ k : Fin 256, xArr V c (((cfg0.win 0).blk t).view.emb (ix2 p k)) * wArr V c (((cfg0.win 1).blk t).view.emb (ix2 k q))) + bArr V c (((cfg0.win 2).blk t).view.emb (ix2 (0 : Fin 1) q))) zeroF
     = max ((∑ k : Fin 256, xArr V c (ix2 ((((cfg0.win 3).blk t).view.emb (ix2 p q)) 0) k) * wArr V c (ix2 k ((((cfg0.win 3).blk t).view.emb (ix2 p q)) 1))) + bArr V c (ix2 (0 : Fin 1) ((((cfg0.win 3).blk t).view.emb (ix2 p q)) 1))) zeroF
  have h2 : ((cfg0.win 2).blk t).view.emb (ix2 (0 : Fin 1) q) = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  rw [h2]
  refine congrArg (fun s => max (s + bArr V c (ix2 (0 : Fin 1) ((((cfg0.win 3).blk t).view.emb (ix2 p q)) 1))) zeroF) ?_
  refine Finset.sum_congr rfl fun k _ => ?_
  have h0 : ((cfg0.win 0).blk t).view.emb (ix2 p k) = ix2 ((((cfg0.win 3).blk t).view.emb (ix2 p q)) 0) k := by
    funext a; apply Fin.ext
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have h1 : ((cfg0.win 1).blk t).view.emb (ix2 k q) = ix2 k ((((cfg0.win 3).blk t).view.emb (ix2 p q)) 1) := by
    funext a; apply Fin.ext
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  rw [h0, h1]
  rfl

/-- An index is in point t's block iff each coordinate is in the block's range on its axis. -/
theorem mem_blk (t : Fin cfg0.N) (i : S20000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v3).slice (win0_3.rect t)).set ↔ _
  rw [View.set_slice_whole, Rect.mem_set_unit]
  exact Iff.rfl

/-- Row r is in the block of point r / 5000: the blocks tile the array. -/
theorem cover (i : S20000x128.Idx) : ∃ t : Fin cfg0.N, (cfg0.win 3).flush t = true ∧ i ∈ ((cfg0.win 3).blk t).view.set := by
  have hi0 : (i 0).val < 20000 := (i 0).isLt
  have hi1 : (i 1).val < 128 := (i 1).isLt
  have hk : (i 0).val / 5000 < 4 := by omega
  obtain ⟨e0, e1, e2, e3, e4, e5, e6, e7⟩ := idx_facts ⟨(i 0).val / 5000, hk⟩
  have e6' : win0_3.index ⟨(i 0).val / 5000, hk⟩ (0 : Fin 2) = (i 0).val / 5000 := e6
  refine ⟨⟨(i 0).val / 5000, hk⟩, flush0_3 _, ?_⟩
  rw [mem_blk]
  intro a
  match a with
  | ⟨0, _⟩ => show win0_3.index ⟨(i 0).val / 5000, hk⟩ (0 : Fin 2) * 5000 ≤ (i 0).val ∧ (i 0).val < win0_3.index ⟨(i 0).val / 5000, hk⟩ (0 : Fin 2) * 5000 + 5000; omega
  | ⟨1, _⟩ => show win0_3.index ⟨(i 0).val / 5000, hk⟩ (1 : Fin 2) * 128 ≤ (i 1).val ∧ (i 1).val < win0_3.index ⟨(i 0).val / 5000, hk⟩ (1 : Fin 2) * 128 + 128; omega

/-- The region's output array after the run: the linear layer, clamped, of the arrays it was entered with. -/
theorem final (c : Dev nD) : (dat0 V c).arrAt 3 cfg0.N = linClamp (V c main_arg0) (V c main_arg4) (V c main_v0) :=
  (dat0 V c).arrAt_eq_of_cover 3 _ (fun t _ => flushed_eq V c t) cover

end Cert.KernelIdeal.Reg0

end
-- ==== Proof.Reg1.lean ====
/- The second pallas_call: a linear layer with its clamp. A [80000, 256] array times [256, 128] weights into a zero
  accumulator, plus the bias row, clamped below at zero; ten blocks of 8000 rows. Entry (p, q) of block t is
  max (Σ_k x(8000·t + p, k) · w(k, q) + b(0, q)) 0: row 8000·t + p of the whole-array layer. The blocks tile the array,
  so the array ends holding the whole layer.
-/
import proofs.«156425_j60722247631463_1_alg».proof.Proof.Gen.KernelIdeal.Frame
import proofs.«156425_j60722247631463_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, at their literal types. -/
abbrev xArr (c : Dev nD) : Arr2 80000 256 := V c main_arg1
abbrev wArr (c : Dev nD) : Arr2 256 128 := V c main_arg6
abbrev bArr (c : Dev nD) : Arr2 1 128 := V c main_v1

/-- The product's operand indices at output entry i and contraction index q, axis by axis. -/
theorem lhs_0 (i : S8000x128.Idx) (q : dot_S8000x256_S256x128_S8000x128_1_0_0_1_n_n.contr.Idx) :
    (dot_S8000x256_S256x128_S8000x128_1_0_0_1_n_n.lhsIdx i q 0).val = (i 0).val := by
  unfold DotDims.lhsIdx
  rw [dif_neg (show ¬(0 : Fin S8000x256.rank) ∈ dot_S8000x256_S256x128_S8000x128_1_0_0_1_n_n.lhsBatch by decide), dif_pos (show (0 : Fin S8000x256.rank) ∈ dot_S8000x256_S256x128_S8000x128_1_0_0_1_n_n.lhsNonContracting by decide)]
  rfl
theorem lhs_1 (i : S8000x128.Idx) (q : dot_S8000x256_S256x128_S8000x128_1_0_0_1_n_n.contr.Idx) :
    (dot_S8000x256_S256x128_S8000x128_1_0_0_1_n_n.lhsIdx i q 1).val = (q ⟨0, by decide⟩).val :=
  dot_S8000x256_S256x128_S8000x128_1_0_0_1_n_n.lhsIdx_val_of_single rfl i q
theorem rhs_0 (i : S8000x128.Idx) (q : dot_S8000x256_S256x128_S8000x128_1_0_0_1_n_n.contr.Idx) :
    (dot_S8000x256_S256x128_S8000x128_1_0_0_1_n_n.rhsIdx i q 0).val = (q ⟨0, by decide⟩).val :=
  dot_S8000x256_S256x128_S8000x128_1_0_0_1_n_n.rhsIdx_val_of_single rfl i q
theorem rhs_1 (i : S8000x128.Idx) (q : dot_S8000x256_S256x128_S8000x128_1_0_0_1_n_n.contr.Idx) :
    (dot_S8000x256_S256x128_S8000x128_1_0_0_1_n_n.rhsIdx i q 1).val = (i 1).val := by
  unfold DotDims.rhsIdx
  rw [dif_neg (show ¬(1 : Fin S256x128.rank) ∈ dot_S8000x256_S256x128_S8000x128_1_0_0_1_n_n.rhsBatch by decide), dif_pos (show (1 : Fin S256x128.rank) ∈ dot_S8000x256_S256x128_S8000x128_1_0_0_1_n_n.rhsNonContracting by decide)]
  rfl

/-- The block product into a zero accumulator at entry (p, q): the sum over k of the row operand at (p, k) times the
    weights at (k, q). -/
theorem mm_apply (x0 : FVec Ideal S8000x256 .bf16) (x1 : FVec Ideal S256x128 .bf16) (p : Fin 8000) (q : Fin 128) :
    matmul dot_S8000x256_S256x128_S8000x128_1_0_0_1_n_n none x0 x1 (constant S8000x128 .f32 0x00000000#32) (ix2 p q) = ∑ k : Fin 256, x0 (ix2 p k) * x1 (ix2 k q) := by
  refine (Ideal.matmul_constant_zero_apply dot_S8000x256_S256x128_S8000x128_1_0_0_1_n_n none x0 x1 (ix2 p q)).trans ?_
  rw [← Equiv.sum_comp (contrEquiv1 dot_S8000x256_S256x128_S8000x128_1_0_0_1_n_n 256 rfl rfl).symm]
  refine Finset.sum_congr rfl fun k _ => ?_
  have hk := contrEquiv1_symm_val dot_S8000x256_S256x128_S8000x128_1_0_0_1_n_n 256 rfl rfl k
  have el : dot_S8000x256_S256x128_S8000x128_1_0_0_1_n_n.lhsIdx (ix2 p q) ((contrEquiv1 dot_S8000x256_S256x128_S8000x128_1_0_0_1_n_n 256 rfl rfl).symm k) = ix2 p k := funext fun a => Fin.ext (by
    match a with
    | ⟨0, _⟩ => exact lhs_0 _ _
    | ⟨1, _⟩ => exact (lhs_1 _ _).trans hk)
  have er : dot_S8000x256_S256x128_S8000x128_1_0_0_1_n_n.rhsIdx (ix2 p q) ((contrEquiv1 dot_S8000x256_S256x128_S8000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The body's arithmetic at entry (p, q) of a block: the row of the block times column q of the weights, plus the
    bias row's entry q, clamped below at zero (the change of float format is the identity). -/
theorem pay_apply (x0 : Vec Ideal S8000x256 .f32) (x1 : Vec Ideal S256x128 .f32) (x2 : Vec Ideal S1x128 .f32) (p : Fin 8000) (q : Fin 128) :
    k1_pay1 (F := Ideal) x0 x1 x2 (ix2 p q) = max ((∑ k : Fin 256, x0 (ix2 p k) * x1 (ix2 k q)) + x2 (ix2 (0 : Fin 1) q)) zeroF := by
  unfold k1_pay1
  simp only [maximumf_apply, addf_apply, shapeCast_self, broadcast_apply]
  rw [broadcastTo_1b_ab_apply]
  refine congrArg (fun s => max (s + x2 (ix2 (0 : Fin 1) q)) zeroF) ?_
  exact mm_apply (truncf .bf16 x0 bitsLt_bf16_f32) (truncf .bf16 x1 bitsLt_bf16_f32) p q

/-- The index maps over the grid: the row operand and the output move together, one block of rows per point; the
    weights and the bias row stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of the whole-array linear layer of the arrays the region finds. -/
theorem flushed_eq (c : Dev nD) (t : Fin cfg1.N) :
    (dat1 V c).flushed 3 t = ((cfg1.win 3).blk t).view.read (Elt Ideal) (linClamp (V c main_arg1) (V c main_arg6) (V c main_v1)) := by
  show (cfg1.win 3).cut (grid1.coords t) ((dat1 V c).after 3 t) = _
  rw [after1_3]
  unfold out1_3
  rw [View.canon_unit_zero hz]
  simp only [View.ld_unit_zero (S := S8000x256) hz, View.ld_unit_zero (S := S256x128) hz, View.ld_unit_zero (S := S1x128) hz]
  obtain ⟨e0, e1, e2, e3, e4, e5, e6, e7⟩ := idx_facts t
  funext j
  obtain ⟨p, q, rfl⟩ : ∃ (p : Fin 8000) (q : Fin 128), j = ix2 p q := ⟨j 0, j 1, eq_ix2 j⟩
  refine (pay_apply (iblk1 V c 0 t) (iblk1 V c 1 t) (iblk1 V c 2 t) p q).trans ?_
  show max ((∑ k : Fin 256, xArr V c (((cfg1.win 0).blk t).view.emb (ix2 p k)) * wArr V c (((cfg1.win 1).blk t).view.emb (ix2 k q))) + bArr V c (((cfg1.win 2).blk t).view.emb (ix2 (0 : Fin 1) q))) zeroF
     = max ((∑ k : Fin 256, xArr V c (ix2 ((((cfg1.win 3).blk t).view.emb (ix2 p q)) 0) k) * wArr V c (ix2 k ((((cfg1.win 3).blk t).view.emb (ix2 p q)) 1))) + bArr V c (ix2 (0 : Fin 1) ((((cfg1.win 3).blk t).view.emb (ix2 p q)) 1))) zeroF
  have h2 : ((cfg1.win 2).blk t).view.emb (ix2 (0 : Fin 1) q) = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h2]
  refine congrArg (fun s => max (s + bArr V c (ix2 (0 : Fin 1) ((((cfg1.win 3).blk t).view.emb (ix2 p q)) 1))) zeroF) ?_
  refine Finset.sum_congr rfl fun k _ => ?_
  have h0 : ((cfg1.win 0).blk t).view.emb (ix2 p k) = ix2 ((((cfg1.win 3).blk t).view.emb (ix2 p q)) 0) k := by
    funext a; apply Fin.ext
    match a with
    | ⟨0, _⟩ => show win1_0.index t (0 : Fin 2) * 8000 + 1 * p.val = win1_3.index t (0 : Fin 2) * 8000 + 1 * p.val; omega
    | ⟨1, _⟩ => show win1_0.index t (1 : Fin 2) * 256 + 1 * k.val = k.val; omega
  have h1 : ((cfg1.win 1).blk t).view.emb (ix2 k q) = ix2 k ((((cfg1.win 3).blk t).view.emb (ix2 p q)) 1) := by
    funext a; apply Fin.ext
    match a with
    | ⟨0, _⟩ => show win1_1.index t (0 : Fin 2) * 256 + 1 * k.val = k.val; omega
    | ⟨1, _⟩ => show win1_1.index t (1 : Fin 2) * 128 + 1 * q.val = win1_3.index t (1 : Fin 2) * 128 + 1 * q.val; omega
  rw [h0, h1]
  rfl

/-- An index is in point t's block iff each coordinate is in the block's range on its axis. -/
theorem mem_blk (t : Fin cfg1.N) (i : S80000x128.Idx) :
    i ∈ ((cfg1.win 3).blk t).view.set ↔ ∀ a : Fin 2, win1_3.index t a * S8000x128.size a ≤ (i a).val ∧ (i a).val < win1_3.index t a * S8000x128.size a + S8000x128.size a := by
  show i ∈ ((View.whole main_v4).slice (win1_3.rect t)).set ↔ _
  rw [View.set_slice_whole, Rect.mem_set_unit]
  exact Iff.rfl

/-- Row r is in the block of point r / 8000: the blocks tile the array. -/
theorem cover (i : S80000x128.Idx) : ∃ t : Fin cfg1.N, (cfg1.win 3).flush t = true ∧ i ∈ ((cfg1.win 3).blk t).view.set := by
  have hi0 : (i 0).val < 80000 := (i 0).isLt
  have hi1 : (i 1).val < 128 := (i 1).isLt
  have hk : (i 0).val / 8000 < 10 := by omega
  obtain ⟨e0, e1, e2, e3, e4, e5, e6, e7⟩ := idx_facts ⟨(i 0).val / 8000, hk⟩
  have e6' : win1_3.index ⟨(i 0).val / 8000, hk⟩ (0 : Fin 2) = (i 0).val / 8000 := e6
  refine ⟨⟨(i 0).val / 8000, hk⟩, flush1_3 _, ?_⟩
  rw [mem_blk]
  intro a
  match a with
  | ⟨0, _⟩ => show win1_3.index ⟨(i 0).val / 8000, hk⟩ (0 : Fin 2) * 8000 ≤ (i 0).val ∧ (i 0).val < win1_3.index ⟨(i 0).val / 8000, hk⟩ (0 : Fin 2) * 8000 + 8000; omega
  | ⟨1, _⟩ => show win1_3.index ⟨(i 0).val / 8000, hk⟩ (1 : Fin 2) * 128 ≤ (i 1).val ∧ (i 1).val < win1_3.index ⟨(i 0).val / 8000, hk⟩ (1 : Fin 2) * 128 + 128; omega

/-- The region's output array after the run: the linear layer, clamped, of the arrays it was entered with. -/
theorem final (c : Dev nD) : (dat1 V c).arrAt 3 cfg1.N = linClamp (V c main_arg1) (V c main_arg6) (V c main_v1) :=
  (dat1 V c).arrAt_eq_of_cover 3 _ (fun t _ => flushed_eq V c t) cover

end Cert.KernelIdeal.Reg1

end
-- ==== Proof.Reg2.lean ====
/-
  The third pallas_call: a [100000, 128] array times [128, 128] weights, ten blocks of 10000 rows, the product taken
  into a zero accumulator. Entry (p, q) of block t is the sum over k of x(10000·t + p, k) · w(k, q): row 10000·t + p of
  the whole product. The blocks tile the array, so the array ends holding the whole product.
-/
import proofs.«156425_j60722247631463_1_alg».proof.Proof.Gen.KernelIdeal.Frame
import proofs.«156425_j60722247631463_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The two arrays the region reads, at their literal types. -/
abbrev xArr (c : Dev nD) : Arr2 100000 128 := V c main_v5
abbrev wArr (c : Dev nD) : Arr2 128 128 := V c main_arg8

theorem hz : (![0, 0] : Fin 2 → Nat) = fun _ => 0 := funext fun a => by fin_cases a <;> rfl

/-- The product's operand indices at output entry i and contraction index q, axis by axis. -/
theorem lhs_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product into a zero accumulator at entry (p, q): the sum over k of the row operand at (p, k) times the
    weights at (k, q). -/
theorem mm_apply (x0 : FVec Ideal S10000x128 .bf16) (x1 : FVec Ideal S128x128 .bf16) (p : Fin 10000) (q : Fin 128) :
    matmul dot_S10000x128_S128x128_S10000x128_1_0_0_1_n_n none x0 x1 (constant S10000x128 .f32 0x00000000#32) (ix2 p q) = ∑ k : Fin 128, x0 (ix2 p k) * x1 (ix2 k q) := by
  refine (Ideal.matmul_constant_zero_apply dot_S10000x128_S128x128_S10000x128_1_0_0_1_n_n none x0 x1 (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's arithmetic at entry (p, q) of a block (the change of float format is the identity). -/
theorem pay_apply (x0 : Vec Ideal S10000x128 .f32) (x1 : Vec Ideal S128x128 .f32) (p : Fin 10000) (q : Fin 128) :
    k2_pay1 (F := Ideal) x0 x1 (ix2 p q) = ∑ k : Fin 128, x0 (ix2 p k) * x1 (ix2 k q) := by
  unfold k2_pay1
  simp only [shapeCast_self]
  exact mm_apply (truncf .bf16 x0 bitsLt_bf16_f32) (truncf .bf16 x1 bitsLt_bf16_f32) p q

/-- The index maps over the grid: the row operand and the output move together, one block of rows per point; the
    weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product of the arrays the region finds. -/
theorem flushed_eq (c : Dev nD) (t : Fin cfg2.N) :
    (dat2 V c).flushed 2 t = ((cfg2.win 2).blk t).view.read (Elt Ideal) (rowsMul (V c main_v5) (V c main_arg8)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_apply (iblk2 V c 0 t) (iblk2 V c 1 t) p q).trans ?_
  show (∑ k : Fin 128, xArr V c (((cfg2.win 0).blk t).view.emb (ix2 p k)) * wArr V c (((cfg2.win 1).blk t).view.emb (ix2 k q)))
     = ∑ k : Fin 128, xArr V c (ix2 ((((cfg2.win 2).blk t).view.emb (ix2 p q)) 0) k) * wArr V c (ix2 k ((((cfg2.win 2).blk t).view.emb (ix2 p q)) 1))
  refine Finset.sum_congr rfl fun k _ => ?_
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]
  rfl

/-- An index is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v6).slice (win2_2.rect t)).set ↔ _
  rw [View.set_slice_whole, Rect.mem_set_unit]
  exact Iff.rfl

/-- Row r is in the block of point r / 10000: the blocks tile the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hk : (i 0).val / 10000 < 10 := by omega
  obtain ⟨e0, e1, e2, e3, e4, e5⟩ := idx_facts ⟨(i 0).val / 10000, hk⟩
  have e4' : win2_2.index ⟨(i 0).val / 10000, hk⟩ (0 : Fin 2) = (i 0).val / 10000 := e4
  refine ⟨⟨(i 0).val / 10000, hk⟩, flush2_2 _, ?_⟩
  rw [mem_blk]
  intro a
  match a with
  | ⟨0, _⟩ => show win2_2.index ⟨(i 0).val / 10000, hk⟩ (0 : Fin 2) * 10000 ≤ (i 0).val ∧ (i 0).val < win2_2.index ⟨(i 0).val / 10000, hk⟩ (0 : Fin 2) * 10000 + 10000; omega
  | ⟨1, _⟩ => show win2_2.index ⟨(i 0).val / 10000, hk⟩ (1 : Fin 2) * 128 ≤ (i 1).val ∧ (i 1).val < win2_2.index ⟨(i 0).val / 10000, hk⟩ (1 : Fin 2) * 128 + 128; omega

/-- The region's output array after the run: the rows of the array it was entered with times the weights. -/
theorem final (c : Dev nD) : (dat2 V c).arrAt 2 cfg2.N = rowsMul (V c main_v5) (V c main_arg8) :=
  (dat2 V c).arrAt_eq_of_cover 2 _ (fun t _ => flushed_eq V c t) cover

end Cert.KernelIdeal.Reg2

end
-- ==== Proof.Reg3.lean ====
/-
  The fourth pallas_call: the bias row added to every row of a [100000, 128] array and the result clamped below at
  zero, ten blocks of 10000 rows. Block t of the output is rows 10000·t … 10000·t + 9999; its entry (p, q) is
  max (a(10000·t + p, q) + b(0, q)) 0, which is entry (10000·t + p, q) of the whole-array function: the blocks are
  restrictions of one function, and they tile the array, so the array ends holding that function.
-/
import proofs.«156425_j60722247631463_1_alg».proof.Proof.Gen.KernelIdeal.Frame
import proofs.«156425_j60722247631463_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Reg3

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The two arrays the region reads, at their literal types. -/
abbrev aArr (c : Dev nD) : Arr2 100000 128 := V c main_v55
abbrev bArr (c : Dev nD) : Arr2 1 128 := V c main_v2

theorem hz : (![0, 0] : Fin 2 → Nat) = fun _ => 0 := funext fun a => by fin_cases a <;> rfl

/-- The body's arithmetic at entry (p, q) of a block: the loaded entry plus the bias row's entry q, clamped. -/
theorem pay_apply (x0 : Vec Ideal S10000x128 .f32) (x1 : Vec Ideal S1x128 .f32) (p : Fin 10000) (q : Fin 128) :
    k3_pay1 (F := Ideal) x0 x1 (ix2 p q) = max (x0 (ix2 p q) + x1 (ix2 (0 : Fin 1) q)) zeroF := by
  unfold k3_pay1
  simp only [maximumf_apply, addf_apply, shapeCast_self, broadcast_apply]
  rw [broadcastTo_1b_ab_apply]
  rfl

/-- The index maps over the grid: the row operand and the output move together, one block of rows per point; the
    bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole-array function of the arrays the region finds. -/
theorem flushed_eq (c : Dev nD) (t : Fin cfg3.N) :
    (dat3 V c).flushed 2 t = ((cfg3.win 2).blk t).view.read (Elt Ideal) (biasClamp (V c main_v55) (V c main_v2)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (pay_apply (iblk3 V c 0 t) (iblk3 V c 1 t) p q).trans ?_
  show max (aArr V c (((cfg3.win 0).blk t).view.emb (ix2 p q)) + bArr V c (((cfg3.win 1).blk t).view.emb (ix2 (0 : Fin 1) q))) zeroF
     = max (aArr V c (((cfg3.win 2).blk t).view.emb (ix2 p q)) + bArr V c (ix2 (0 : Fin 1) ((((cfg3.win 2).blk t).view.emb (ix2 p q)) 1))) zeroF
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]
  rfl

/-- An index is in point t's block iff each coordinate is in the block's range on its axis. -/
theorem mem_blk (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v56).slice (win3_2.rect t)).set ↔ _
  rw [View.set_slice_whole, Rect.mem_set_unit]
  exact Iff.rfl

/-- Row r is in the block of point r / 10000: the blocks tile the array. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hk : (i 0).val / 10000 < 10 := by omega
  obtain ⟨e0, e1, e2, e3, e4, e5⟩ := idx_facts ⟨(i 0).val / 10000, hk⟩
  have e4' : win3_2.index ⟨(i 0).val / 10000, hk⟩ (0 : Fin 2) = (i 0).val / 10000 := e4
  refine ⟨⟨(i 0).val / 10000, hk⟩, flush3_2 _, ?_⟩
  rw [mem_blk]
  intro a
  match a with
  | ⟨0, _⟩ => show win3_2.index ⟨(i 0).val / 10000, hk⟩ (0 : Fin 2) * 10000 ≤ (i 0).val ∧ (i 0).val < win3_2.index ⟨(i 0).val / 10000, hk⟩ (0 : Fin 2) * 10000 + 10000; omega
  | ⟨1, _⟩ => show win3_2.index ⟨(i 0).val / 10000, hk⟩ (1 : Fin 2) * 128 ≤ (i 1).val ∧ (i 1).val < win3_2.index ⟨(i 0).val / 10000, hk⟩ (1 : Fin 2) * 128 + 128; omega

/-- The region's output array after the run: the bias-and-clamp pass of the arrays the region was entered with. -/
theorem final (c : Dev nD) : (dat3 V c).arrAt 2 cfg3.N = biasClamp (V c main_v55) (V c main_v2) :=
  (dat3 V c).arrAt_eq_of_cover 2 _ (fun t _ => flushed_eq V c t) cover

end Cert.KernelIdeal.Reg3

end
-- ==== Proof.Reg4.lean ====
/-
  The fifth pallas_call: the edge scores. Two [1000000, 128] arrays, a hundred blocks of 10000 rows; each point multiplies
  its two blocks entry by entry and sums every row's 128 products into a one-column block. Entry (p, 0) of block t is the
  inner product of rows 10000·t + p of the two arrays: row 10000·t + p of the whole-array function. The blocks tile
  the array, so the array ends holding that function.
-/
import proofs.«156425_j60722247631463_1_alg».proof.Proof.Gen.KernelIdeal.Frame
import proofs.«156425_j60722247631463_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg4

open Cert.KernelIdeal Cert.KernelIdeal.Gen Cert.Spec
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The two arrays the region reads, at their literal types. -/
abbrev sArr (c : Dev nD) : Arr2 1000000 128 := V c main_v67
abbrev tArr (c : Dev nD) : Arr2 1000000 128 := V c main_v74

theorem hz : (![0, 0] : Fin 2 → Nat) = fun _ => 0 := funext fun a => by fin_cases a <;> rfl

/-- An [a] array cast to [a, 1] reads, at (p, u), the operand at p, whatever the unit coordinate u. -/
theorem shapeCast_a_a1_apply {a : ℕ} (x : (⟨1, ![a]⟩ : Shape).Idx → EReal) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The lane sum of a block at row p: the sum of the row's 128 entries. -/
theorem laneSum_apply (src : FVec Ideal S10000x128 .f32) (hφ : FKind.Formats FTy.f32)
    (hacc : (0x00000000#32 : BitVec 32) = FKind.add.neutral FTy.f32 hφ) (p : Fin 10000) :
    multiReduction (F := Ideal) .add [1] S10000 src 0x00000000#32 reduces_S10000x128_S10000 hφ hacc (ix1 p)
      = ∑ k : Fin 128, src (ix2 p k) := by
  refine (Ideal.multiReduction_add_single src 0x00000000#32 reduces_S10000x128_S10000 hφ hacc (ix1 p)).trans ?_
  refine Finset.sum_congr rfl fun k _ => ?_
  exact congrArg src (funext fun a => Fin.ext (by match a with | ⟨0, _⟩ => rfl | ⟨1, _⟩ => rfl))

/-- The body's arithmetic at row p of a block: the inner product of the two loaded rows. -/
theorem pay_apply (x0 x1 : Vec Ideal S10000x128 .f32) (p : Fin 10000) (u : Fin 1) :
    k4_pay1 (F := Ideal) x0 x1 (ix2 p u) = ∑ k : Fin 128, x0 (ix2 p k) * x1 (ix2 p k) := by
  unfold k4_pay1
  simp only [shapeCast_self]
  refine (shapeCast_a_a1_apply _ _ p u).trans ?_
  exact laneSum_apply (mulf x0 x1) _ _ p

/-- The index maps over the grid: the two row operands and the output move together, one block of rows per point. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of the whole-array row inner product of the arrays the region finds. -/
theorem flushed_eq (c : Dev nD) (t : Fin cfg4.N) :
    (dat4 V c).flushed 2 t = ((cfg4.win 2).blk t).view.read (Elt Ideal) (rowInner (V c main_v67) (V c main_v74)) := by
  show (cfg4.win 2).cut (grid4.coords t) ((dat4 V c).after 2 t) = _
  rw [after4_2]
  unfold out4_2
  rw [View.canon_unit_zero hz]
  simp only [View.ld_unit_zero (S := S10000x128) hz]
  obtain ⟨e0, e1, e2, e3, e4, e5⟩ := idx_facts t
  funext j
  obtain ⟨p, u, rfl⟩ : ∃ (p : Fin 10000) (u : Fin 1), j = ix2 p u := ⟨j 0, j 1, eq_ix2 j⟩
  refine (pay_apply (iblk4 V c 0 t) (iblk4 V c 1 t) p u).trans ?_
  show (∑ k : Fin 128, sArr V c (((cfg4.win 0).blk t).view.emb (ix2 p k)) * tArr V c (((cfg4.win 1).blk t).view.emb (ix2 p k)))
     = ∑ k : Fin 128, sArr V c (ix2 ((((cfg4.win 2).blk t).view.emb (ix2 p u)) 0) k) * tArr V c (ix2 ((((cfg4.win 2).blk t).view.emb (ix2 p u)) 0) k)
  refine Finset.sum_congr rfl fun k _ => ?_
  have h0 : ((cfg4.win 0).blk t).view.emb (ix2 p k) = ix2 ((((cfg4.win 2).blk t).view.emb (ix2 p u)) 0) k := by
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * k.val = k.val; omega
  have h1 : ((cfg4.win 1).blk t).view.emb (ix2 p k) = ix2 ((((cfg4.win 2).blk t).view.emb (ix2 p u)) 0) k := by
    funext a; apply Fin.ext
    match a with
    | ⟨0, _⟩ => show win4_1.index t (0 : Fin 2) * 10000 + 1 * p.val = win4_2.index t (0 : Fin 2) * 10000 + 1 * p.val; omega
    | ⟨1, _⟩ => show win4_1.index t (1 : Fin 2) * 128 + 1 * k.val = k.val; omega
  rw [h0, h1]
  rfl

/-- An index is in point t's block iff each coordinate is in the block's range on its axis. -/
theorem mem_blk (t : Fin cfg4.N) (i : S1000000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v75).slice (win4_2.rect t)).set ↔ _
  rw [View.set_slice_whole, Rect.mem_set_unit]
  exact Iff.rfl

/-- Row r is in the block of point r / 10000: the blocks tile the array. -/
theorem cover (i : S1000000x1.Idx) : ∃ t : Fin cfg4.N, (cfg4.win 2).flush t = true ∧ i ∈ ((cfg4.win 2).blk t).view.set := by
  have hi0 : (i 0).val < 1000000 := (i 0).isLt
  have hi1 : (i 1).val < 1 := (i 1).isLt
  have hk : (i 0).val / 10000 < 100 := by omega
  obtain ⟨e0, e1, e2, e3, e4, e5⟩ := idx_facts ⟨(i 0).val / 10000, hk⟩
  have e4' : win4_2.index ⟨(i 0).val / 10000, hk⟩ (0 : Fin 2) = (i 0).val / 10000 := e4
  refine ⟨⟨(i 0).val / 10000, hk⟩, flush4_2 _, ?_⟩
  rw [mem_blk]
  intro a
  match a with
  | ⟨0, _⟩ => show win4_2.index ⟨(i 0).val / 10000, hk⟩ (0 : Fin 2) * 10000 ≤ (i 0).val ∧ (i 0).val < win4_2.index ⟨(i 0).val / 10000, hk⟩ (0 : Fin 2) * 10000 + 10000; omega
  | ⟨1, _⟩ => show win4_2.index ⟨(i 0).val / 10000, hk⟩ (1 : Fin 2) * 1 ≤ (i 1).val ∧ (i 1).val < win4_2.index ⟨(i 0).val / 10000, hk⟩ (1 : Fin 2) * 1 + 1; omega

/-- The region's output array after the run: each row's inner product of the two arrays it was entered with. -/
theorem final (c : Dev nD) : (dat4 V c).arrAt 2 cfg4.N = rowInner (V c main_v67) (V c main_v74) :=
  (dat4 V c).arrAt_eq_of_cover 2 _ (fun t _ => flushed_eq V c t) cover

end Cert.KernelIdeal.Reg4

end
-- ==== Proof.RefStages.lean ====
/-
  The reference program's dense stages are the whole-array functions of the specification. Its first two stages are
  linear layers with a clamp: a product of the whole array with the weights, the bias broadcast over the rows, a
  maximum with zero. The third is a plain product. After the message passing the bias of the convolution is added and
  the result clamped; the score of an edge is the sum over the 128 columns of the product of two gathered rows.
  Each is read at an index through the stage-by-stage reading of the reference and compared with the specification's
  formula at that index; the bias row b stands for any [1, 128] array whose row reads as the bias vector.
-/
import proofs.«156425_j60722247631463_1_alg».proof.Proof.Gen.ReferenceIdeal.Read
import proofs.«156425_j60722247631463_1_alg».proof.Proof.Spec
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.Read Cert.Spec
open Idealize.ShloMosaic Idealize.ShloMosaic.TcCoe Idealize.SL.Sem Idealize.ShloMosaic.ValueIdx

/-- The first layer of the reference is the linear layer with its clamp. -/
theorem layer1_eq (x0 : (⟨S20000x256, .f32⟩ : BufTy).Contents (Elt Ideal)) (x4 : (⟨S256x128, .f32⟩ : BufTy).Contents (Elt Ideal)) (x5 : (⟨S128, .f32⟩ : BufTy).Contents (Elt Ideal)) (b : Arr2 1 128)
    (hb : ∀ q : Fin 128, b (ix2 (0 : Fin 1) q) = x5 (ix1 q)) :
    val_main_v4 (F := Ideal) x0 x4 x5 = linClamp x0 x4 b := by
  funext i
  obtain ⟨r, c, rfl⟩ : ∃ (r : Fin 20000) (c : Fin 128), i = ix2 r c := ⟨i 0, i 1, eq_ix2 i⟩
  rw [val_main_v4_apply, val_main_v3_apply, val_main_v0_apply, val_main_v2_apply, val_main_v1_apply, val_main_call0_v0_apply, val_main_call0_cst_apply]
  have hl : ∀ k : Fin 256, lidx_main_v0 (ix2 r c) k = ix2 r k := fun k =>
    funext fun a => Fin.ext (by match a with | ⟨0, _⟩ => rfl | ⟨1, _⟩ => rfl)
  have hr : ∀ k : Fin 256, ridx_main_v0 (ix2 r c) k = ix2 k c := fun k =>
    funext fun a => Fin.ext (by match a with | ⟨0, _⟩ => rfl | ⟨1, _⟩ => rfl)
  have hi : idx_main_v1 (idx_main_v2 (ix2 r c)) = ix1 c :=
    funext fun a => Fin.ext (by match a with | ⟨0, _⟩ => rfl)
  simp only [hl, hr, hi]
  show max ((∑ k : Fin 256, x0 (ix2 r k) * x4 (ix2 k c)) + x5 (ix1 c)) zeroF
    = max ((∑ k : Fin 256, x0 (ix2 r k) * x4 (ix2 k c)) + b (ix2 (0 : Fin 1) c)) zeroF
  rw [hb]

/-- The second layer of the reference is the linear layer with its clamp. -/
theorem layer2_eq (x1 : (⟨S80000x256, .f32⟩ : BufTy).Contents (Elt Ideal)) (x6 : (⟨S256x128, .f32⟩ : BufTy).Contents (Elt Ideal)) (x7 : (⟨S128, .f32⟩ : BufTy).Contents (Elt Ideal)) (b : Arr2 1 128)
    (hb : ∀ q : Fin 128, b (ix2 (0 : Fin 1) q) = x7 (ix1 q)) :
    val_main_v9 (F := Ideal) x1 x6 x7 = linClamp x1 x6 b := by
  funext i
  obtain ⟨r, c, rfl⟩ : ∃ (r : Fin 80000) (c : Fin 128), i = ix2 r c := ⟨i 0, i 1, eq_ix2 i⟩
  rw [val_main_v9_apply, val_main_v8_apply, val_main_v5_apply, val_main_v7_apply, val_main_v6_apply, val_main_call1_v0_apply, val_main_call1_cst_apply]
  have hl : ∀ k : Fin 256, lidx_main_v5 (ix2 r c) k = ix2 r k := fun k =>
    funext fun a => Fin.ext (by match a with | ⟨0, _⟩ => rfl | ⟨1, _⟩ => rfl)
  have hr : ∀ k : Fin 256, ridx_main_v5 (ix2 r c) k = ix2 k c := fun k =>
    funext fun a => Fin.ext (by match a with | ⟨0, _⟩ => rfl | ⟨1, _⟩ => rfl)
  have hi : idx_main_v6 (idx_main_v7 (ix2 r c)) = ix1 c :=
    funext fun a => Fin.ext (by match a with | ⟨0, _⟩ => rfl)
  simp only [hl, hr, hi]
  show max ((∑ k : Fin 256, x1 (ix2 r k) * x6 (ix2 k c)) + x7 (ix1 c)) zeroF
    = max ((∑ k : Fin 256, x1 (ix2 r k) * x6 (ix2 k c)) + b (ix2 (0 : Fin 1) c)) zeroF
  rw [hb]

/-- The reference's product of the joined layers with the convolution's weights is the rows-times-weights function of
    the joined array. -/
theorem product_eq (x0 : (⟨S20000x256, .f32⟩ : BufTy).Contents (Elt Ideal)) (x1 : (⟨S80000x256, .f32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) :
    val_main_v15 (F := Ideal) x0 x1 x4 x5 x6 x7 x8 = rowsMul (val_main_v10 (F := Ideal) x0 x1 x4 x5 x6 x7) x8 := by
  funext i
  obtain ⟨r, c, rfl⟩ : ∃ (r : Fin 100000) (c : Fin 128), i = ix2 r c := ⟨i 0, i 1, eq_ix2 i⟩
  rw [val_main_v15_apply]
  have hl : ∀ k : Fin 128, lidx_main_v15 (ix2 r c) k = ix2 r k := fun k =>
    funext fun a => Fin.ext (by match a with | ⟨0, _⟩ => rfl | ⟨1, _⟩ => rfl)
  have hr : ∀ k : Fin 128, ridx_main_v15 (ix2 r c) k = ix2 k c := fun k =>
    funext fun a => Fin.ext (by match a with | ⟨0, _⟩ => rfl | ⟨1, _⟩ => rfl)
  simp only [hl, hr]
  rfl

/-- The reference's bias and clamp after the message passing is the bias-and-clamp pass of the aggregated array. -/
theorem conv_eq (x0 : (⟨S20000x256, .f32⟩ : BufTy).Contents (Elt Ideal)) (x1 : (⟨S80000x256, .f32⟩ : BufTy).Contents (Elt Ideal)) (x2 : (⟨S2x1600000, .i32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (b : Arr2 1 128)
    (hb : ∀ q : Fin 128, b (ix2 (0 : Fin 1) q) = x9 (ix1 q)) :
    val_main_v62 (F := Ideal) x0 x1 x2 x4 x5 x6 x7 x8 x9 = biasClamp (val_main_v58 (F := Ideal) x0 x1 x2 x4 x5 x6 x7 x8) b := by
  funext i
  obtain ⟨r, c, rfl⟩ : ∃ (r : Fin 100000) (c : Fin 128), i = ix2 r c := ⟨i 0, i 1, eq_ix2 i⟩
  rw [val_main_v62_apply, val_main_v61_apply, val_main_v60_apply, val_main_v59_apply, val_main_call2_v0_apply, val_main_call2_cst_apply]
  have hi : idx_main_v59 (idx_main_v60 (ix2 r c)) = ix1 c :=
    funext fun a => Fin.ext (by match a with | ⟨0, _⟩ => rfl)
  simp only [hi]
  show max (val_main_v58 (F := Ideal) x0 x1 x2 x4 x5 x6 x7 x8 (ix2 r c) + x9 (ix1 c)) zeroF
    = max (val_main_v58 (F := Ideal) x0 x1 x2 x4 x5 x6 x7 x8 (ix2 r c) + b (ix2 (0 : Fin 1) c)) zeroF
  rw [hb]

/-- A host sum over the 128 columns of an entrywise product, from zero: at row e, the inner product of the two rows e. -/
theorem rowSum_eq (a b : FVec Ideal S1000000x128 .f32) (e : Fin 1000000) :
    Host.reduceAdd (F := Ideal) (mulf a b) (constant (F := Ideal) S_ .f32 0x00000000#32) reducesTo_S1000000x128_S1000000_d1 h_S_ (ix1 e)
      = rowInner a b (ix2 e (0 : Fin 1)) := by
  simp only [Host.reduceAdd, Ideal.hostReduceAdd_def]
  rw [Ideal.hostReduceAdd_single reducesTo_S1000000x128_S1000000_d1 (by decide)]
  refine (congrArg (· + _) (show constant (F := Ideal) S_ .f32 0x00000000#32 (Shape.Idx.first h_S_) = 0 from Ideal.ofBits_zero_f32)).trans ?_
  rw [zero_add]
  refine Finset.sum_congr rfl fun k _ => ?_
  show mulf a b _ = mulf a b (ix2 e k)
  exact congrArg (mulf a b) (funext fun a => Fin.ext (by match a with | ⟨0, _⟩ => rfl | ⟨1, _⟩ => rfl))

/-- The reference's score of edge e is the inner product of the two gathered rows e. -/
theorem score_eq (x0 : (⟨S20000x256, .f32⟩ : BufTy).Contents (Elt Ideal)) (x1 : (⟨S80000x256, .f32⟩ : BufTy).Contents (Elt Ideal)) (x2 : (⟨S2x1600000, .i32⟩ : BufTy).Contents (Elt Ideal)) (x3 : (⟨S2x1000000, .i32⟩ : BufTy).Contents (Elt Ideal)) (x4 : (⟨S256x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (e : Fin 1000000) :
    val_main_v82 (F := Ideal) x0 x1 x2 x3 x4 x5 x6 x7 x8 x9 (ix1 e) = rowInner (val_main_v71 (F := Ideal) x0 x1 x2 x3 x4 x5 x6 x7 x8 x9) (val_main_v80 (F := Ideal) x0 x1 x2 x3 x4 x5 x6 x7 x8 x9) (ix2 e (0 : Fin 1)) := by
  unfold val_main_v82 val_main_v81 val_main_cst_13
  exact rowSum_eq _ _ e

end Cert.ReferenceIdeal.Stages

end
-- ==== Proof.Chain.lean ====
/-
  The kernel program's result, read back to the launch arrays. The run leaves the result buffer at the last boundary's
  contents; each boundary's contents are the previous one's under a stretch of host operations or under a region's
  write-backs. Walking back: the result is the one-column score array recast to a vector; the score array is the fifth
  region's whole-array function of two gathered arrays; those are gathers of the fourth region's output, which is the
  bias-and-clamp pass of the aggregated array; that is the message passing (gathers, a degree count, a scatter-add) of
  the third region's product; the product's row operand is the two linear layers joined. At every step the value is
  the reference's stage of the same name at the launch arrays. The message passing is the same chain of host
  operations in both programs but for the degree: the kernel's program scatters ones into zeros and adds one, the
  reference scatters ones into ones; at each entry both are one plus the count, since a scatter-add is the operand's
  entry plus a sum that does not depend on the operand.
-/
import proofs.«156425_j60722247631463_1_alg».proof.Proof.Gen.KernelIdeal.Frame
import proofs.«156425_j60722247631463_1_alg».proof.Proof.Gen.ReferenceIdeal.Read
import proofs.«156425_j60722247631463_1_alg».proof.Proof.Spec
import proofs.«156425_j60722247631463_1_alg».proof.Proof.Reg0
import proofs.«156425_j60722247631463_1_alg».proof.Proof.Reg1
import proofs.«156425_j60722247631463_1_alg».proof.Proof.Reg2
import proofs.«156425_j60722247631463_1_alg».proof.Proof.Reg3
import proofs.«156425_j60722247631463_1_alg».proof.Proof.Reg4
import proofs.«156425_j60722247631463_1_alg».proof.Proof.RefStages
import Idealize.ShloMosaic.Lib.StableHlo.Run
import Idealize.ShloMosaic.Lib.ValueLayout

set_option maxRecDepth 16384

noncomputable section

namespace Cert.KernelIdeal.Chain

open Cert.KernelIdeal Cert.KernelIdeal.Gen Cert.Spec
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- A stretch of host operations leaves a buffer none of them writes as it was. -/
macro "nw " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-! ## The launch arrays and the bias rows at the boundaries where they are read -/

theorem W1_arg0 : W1 m ρ c (Proc.devRef .tc main_arg0) = (m ((c : Thread nD τ).loc main_arg0)) :=
  calc W1 m ρ c (Proc.devRef .tc main_arg0)
    _ = W0 m ρ c (Proc.devRef .tc main_arg0) := by nw hostOps0
    _ = (m ((c : Thread nD τ).loc main_arg0)) := rfl

theorem W1_arg4 : W1 m ρ c (Proc.devRef .tc main_arg4) = (m ((c : Thread nD τ).loc main_arg4)) :=
  calc W1 m ρ c (Proc.devRef .tc main_arg4)
    _ = W0 m ρ c (Proc.devRef .tc main_arg4) := by nw hostOps0
    _ = (m ((c : Thread nD τ).loc main_arg4)) := rfl

theorem W2_arg1 : W2 m ρ c (Proc.devRef .tc main_arg1) = (m ((c : Thread nD τ).loc main_arg1)) :=
  calc W2 m ρ c (Proc.devRef .tc main_arg1)
    _ = W1 m ρ c (Proc.devRef .tc main_arg1) := W2_of_ne m ρ c main_arg1 (by decide)
    _ = W0 m ρ c (Proc.devRef .tc main_arg1) := by nw hostOps0
    _ = (m ((c : Thread nD τ).loc main_arg1)) := rfl

theorem W2_arg6 : W2 m ρ c (Proc.devRef .tc main_arg6) = (m ((c : Thread nD τ).loc main_arg6)) :=
  calc W2 m ρ c (Proc.devRef .tc main_arg6)
    _ = W1 m ρ c (Proc.devRef .tc main_arg6) := W2_of_ne m ρ c main_arg6 (by decide)
    _ = W0 m ρ c (Proc.devRef .tc main_arg6) := by nw hostOps0
    _ = (m ((c : Thread nD τ).loc main_arg6)) := rfl

theorem W4_arg8 : W4 m ρ c (Proc.devRef .tc main_arg8) = (m ((c : Thread nD τ).loc main_arg8)) :=
  calc W4 m ρ c (Proc.devRef .tc main_arg8)
    _ = W3 m ρ c (Proc.devRef .tc main_arg8) := by nw hostOps2
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := by nw hostOps0
    _ = (m ((c : Thread nD τ).loc main_arg8)) := rfl

theorem W5_arg2 : W5 m ρ c (Proc.devRef .tc main_arg2) = (m ((c : Thread nD τ).loc main_arg2)) :=
  calc W5 m ρ c (Proc.devRef .tc main_arg2)
    _ = W4 m ρ c (Proc.devRef .tc main_arg2) := W5_of_ne m ρ c main_arg2 (by decide)
    _ = W3 m ρ c (Proc.devRef .tc main_arg2) := by nw hostOps2
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := by nw hostOps0
    _ = (m ((c : Thread nD τ).loc main_arg2)) := rfl

theorem W7_arg3 : W7 m ρ c (Proc.devRef .tc main_arg3) = (m ((c : Thread nD τ).loc main_arg3)) :=
  calc W7 m ρ c (Proc.devRef .tc main_arg3)
    _ = W6 m ρ c (Proc.devRef .tc main_arg3) := W7_of_ne m ρ c main_arg3 (by decide)
    _ = W5 m ρ c (Proc.devRef .tc main_arg3) := by nw hostOps3
    _ = W4 m ρ c (Proc.devRef .tc main_arg3) := W5_of_ne m ρ c main_arg3 (by decide)
    _ = W3 m ρ c (Proc.devRef .tc main_arg3) := by nw hostOps2
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := by nw hostOps0
    _ = (m ((c : Thread nD τ).loc main_arg3)) := rfl

/-- The three bias rows: each bias vector recast to one row by the first stretch of host operations. -/
theorem W1_v0 : W1 m ρ c (Proc.devRef .tc main_v0) = shapeCast S1x128 (m ((c : Thread nD τ).loc main_arg5)) shapeCasts_S128_S1x128 := by
  show StableHlo.after hostOps0 (W0 m ρ c) (Proc.devRef .tc main_v0) = _
  after_results
  rfl
theorem W1_v1 : W1 m ρ c (Proc.devRef .tc main_v1) = shapeCast S1x128 (m ((c : Thread nD τ).loc main_arg7)) shapeCasts_S128_S1x128 := by
  show StableHlo.after hostOps0 (W0 m ρ c) (Proc.devRef .tc main_v1) = _
  after_results
  rfl
theorem W1_v2 : W1 m ρ c (Proc.devRef .tc main_v2) = shapeCast S1x128 (m ((c : Thread nD τ).loc main_arg9)) shapeCasts_S128_S1x128 := by
  show StableHlo.after hostOps0 (W0 m ρ c) (Proc.devRef .tc main_v2) = _
  after_results
  rfl
theorem W2_v1 : W2 m ρ c (Proc.devRef .tc main_v1) = shapeCast S1x128 (m ((c : Thread nD τ).loc main_arg7)) shapeCasts_S128_S1x128 :=
  calc W2 m ρ c (Proc.devRef .tc main_v1)
    _ = W1 m ρ c (Proc.devRef .tc main_v1) := W2_of_ne m ρ c main_v1 (by decide)
    _ = shapeCast S1x128 (m ((c : Thread nD τ).loc main_arg7)) shapeCasts_S128_S1x128 := W1_v1 m ρ c

theorem W6_v2 : W6 m ρ c (Proc.devRef .tc main_v2) = shapeCast S1x128 (m ((c : Thread nD τ).loc main_arg9)) shapeCasts_S128_S1x128 :=
  calc W6 m ρ c (Proc.devRef .tc main_v2)
    _ = W5 m ρ c (Proc.devRef .tc main_v2) := by nw hostOps3
    _ = W4 m ρ c (Proc.devRef .tc main_v2) := W5_of_ne m ρ c main_v2 (by decide)
    _ = W3 m ρ c (Proc.devRef .tc main_v2) := by nw hostOps2
    _ = W2 m ρ c (Proc.devRef .tc main_v2) := W3_of_ne m ρ c main_v2 (by decide)
    _ = W1 m ρ c (Proc.devRef .tc main_v2) := W2_of_ne m ρ c main_v2 (by decide)
    _ = shapeCast S1x128 (m ((c : Thread nD τ).loc main_arg9)) shapeCasts_S128_S1x128 := W1_v2 m ρ c

/-- A bias vector recast to one row reads, in its row, as the vector. -/
theorem row_apply (x : (⟨1, ![128]⟩ : Shape).Idx → EReal) (h : (⟨1, ![128]⟩ : Shape).ShapeCasts ⟨2, ![1, 128]⟩) (q : Fin 128) :
    (shapeCast ⟨2, ![1, 128]⟩ x h : Arr2 1 128) (ix2 (0 : Fin 1) q) = x (ix1 q) :=
  shapeCast_a_1a_apply x h 0 q

/-- An [a, 1] array cast to [a] reads, at p, the operand at (p, 0). -/
theorem shapeCast_a1_a_apply {a : ℕ} (x : (⟨2, ![a, 1]⟩ : Shape).Idx → EReal) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-! ## The stages -/

/-- After the first region: the first layer. -/
theorem layer1 : W2 m ρ c (Proc.devRef .tc main_v3) = Cert.ReferenceIdeal.Read.val_main_v4 (F := Ideal) (m ((c : Thread nD τ).loc main_arg0)) (m ((c : Thread nD τ).loc main_arg4)) (m ((c : Thread nD τ).loc main_arg5)) := by
  refine (W2_arr m ρ c 3).trans ?_
  refine (Reg0.final (V1 m ρ) c).trans ?_
  rw [show V1 m ρ c main_arg0 = (m ((c : Thread nD τ).loc main_arg0)) from W1_arg0 m ρ c, show V1 m ρ c main_arg4 = (m ((c : Thread nD τ).loc main_arg4)) from W1_arg4 m ρ c,
    show V1 m ρ c main_v0 = shapeCast S1x128 (m ((c : Thread nD τ).loc main_arg5)) shapeCasts_S128_S1x128 from W1_v0 m ρ c]
  exact (Cert.ReferenceIdeal.Stages.layer1_eq (m ((c : Thread nD τ).loc main_arg0)) (m ((c : Thread nD τ).loc main_arg4)) (m ((c : Thread nD τ).loc main_arg5)) _ (row_apply (m ((c : Thread nD τ).loc main_arg5)) _)).symm

/-- After the second region: the second layer; the first is still there. -/
theorem layer2 : W3 m ρ c (Proc.devRef .tc main_v4) = Cert.ReferenceIdeal.Read.val_main_v9 (F := Ideal) (m ((c : Thread nD τ).loc main_arg1)) (m ((c : Thread nD τ).loc main_arg6)) (m ((c : Thread nD τ).loc main_arg7)) := by
  refine (W3_arr m ρ c 3).trans ?_
  refine (Reg1.final (V2 m ρ) c).trans ?_
  rw [show V2 m ρ c main_arg1 = (m ((c : Thread nD τ).loc main_arg1)) from W2_arg1 m ρ c, show V2 m ρ c main_arg6 = (m ((c : Thread nD τ).loc main_arg6)) from W2_arg6 m ρ c,
    show V2 m ρ c main_v1 = shapeCast S1x128 (m ((c : Thread nD τ).loc main_arg7)) shapeCasts_S128_S1x128 from W2_v1 m ρ c]
  exact (Cert.ReferenceIdeal.Stages.layer2_eq (m ((c : Thread nD τ).loc main_arg1)) (m ((c : Thread nD τ).loc main_arg6)) (m ((c : Thread nD τ).loc main_arg7)) _ (row_apply (m ((c : Thread nD τ).loc main_arg7)) _)).symm
theorem layer1' : W3 m ρ c (Proc.devRef .tc main_v3) = Cert.ReferenceIdeal.Read.val_main_v4 (F := Ideal) (m ((c : Thread nD τ).loc main_arg0)) (m ((c : Thread nD τ).loc main_arg4)) (m ((c : Thread nD τ).loc main_arg5)) :=
  (W3_of_ne m ρ c main_v3 (by decide)).trans (layer1 m ρ c)

/-- The two layers joined, rows of the first above rows of the second. -/
theorem joined : W4 m ρ c (Proc.devRef .tc main_v5) = Cert.ReferenceIdeal.Read.val_main_v10 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) := by
  show StableHlo.after hostOps2 (W3 m ρ c) (Proc.devRef .tc main_v5) = _
  after_results
  rw [layer1' m ρ c, layer2 m ρ c]
  rfl

/-- After the third region: the product with the convolution's weights. -/
theorem product : W5 m ρ c (Proc.devRef .tc main_v6) = Cert.ReferenceIdeal.Read.val_main_v15 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W5_arr m ρ c 2).trans ?_
  refine (Reg2.final (V4 m ρ) c).trans ?_
  rw [show V4 m ρ c main_v5 = Cert.ReferenceIdeal.Read.val_main_v10 (F := Ideal) (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) from joined m ρ c, show V4 m ρ c main_arg8 = (m ((c : Thread nD τ).loc main_arg8)) from W4_arg8 m ρ c]
  exact (Cert.ReferenceIdeal.Stages.product_eq (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8))).symm

/-- A scatter-add into an array of zeros, plus an array o, is the scatter-add into o: entry by entry the operand's entry
    plus a sum the operand has no part in. -/
theorem scatterAdd_zeros_add {s si su : Shape} {w : ℕ} (d : ScatterDims s si su) (z o : FVec Ideal s .f32) (idx : IVec si w)
    (upd : FVec Ideal su .f32) (hz : ∀ i, z i = 0) :
    addf (Host.scatterAdd (F := Ideal) d z idx upd) o = Host.scatterAdd (F := Ideal) d o idx upd := by
  funext i
  show Host.scatterAdd (F := Ideal) d z idx upd i + o i = Host.scatterAdd (F := Ideal) d o idx upd i
  unfold Host.scatterAdd
  rw [Ideal.hostScatterAdd_def, Ideal.hostScatterAdd_def]
  unfold Ideal.hostScatterAdd
  rw [hz i, zero_add, add_comm]

/-- The message passing: the aggregated array. -/
theorem aggregated : W6 m ρ c (Proc.devRef .tc main_v55) = Cert.ReferenceIdeal.Read.val_main_v58 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps3 (W5 m ρ c) (Proc.devRef .tc main_v55) = _
  after_results_simp
  rw [product m ρ c, W5_arg2 m ρ c]
  rw [scatterAdd_zeros_add _ (broadcastInDim S100000 ![] bcast_S_S100000 (constant S_ .f32 0x00000000#32))
    (broadcastInDim S100000 ![] bcast_S_S100000 (constant S_ .f32 0x3F800000#32)) _ _ (fun _ => Ideal.ofBits_zero_f32)]
  simp only [Cert.ReferenceIdeal.Read.val_main_v11, Cert.ReferenceIdeal.Read.val_main_v12, Cert.ReferenceIdeal.Read.val_main_v13, Cert.ReferenceIdeal.Read.val_main_v14, Cert.ReferenceIdeal.Read.val_main_cst, Cert.ReferenceIdeal.Read.val_main_v16, Cert.ReferenceIdeal.Read.val_main_c, Cert.ReferenceIdeal.Read.val_main_v17, Cert.ReferenceIdeal.Read.val_main_v18, Cert.ReferenceIdeal.Read.val_main_c_0, Cert.ReferenceIdeal.Read.val_main_v19, Cert.ReferenceIdeal.Read.val_main_v20, Cert.ReferenceIdeal.Read.val_main_v21, Cert.ReferenceIdeal.Read.val_main_v22, Cert.ReferenceIdeal.Read.val_main_cst_1, Cert.ReferenceIdeal.Read.val_main_v23, Cert.ReferenceIdeal.Read.val_main_v24, Cert.ReferenceIdeal.Read.val_main_v25, Cert.ReferenceIdeal.Read.val_main_c_2, Cert.ReferenceIdeal.Read.val_main_v26, Cert.ReferenceIdeal.Read.val_main_v27, Cert.ReferenceIdeal.Read.val_main_c_3, Cert.ReferenceIdeal.Read.val_main_v28, Cert.ReferenceIdeal.Read.val_main_v29, Cert.ReferenceIdeal.Read.val_main_v30, Cert.ReferenceIdeal.Read.val_main_v31, Cert.ReferenceIdeal.Read.val_main_v32, Cert.ReferenceIdeal.Read.val_main_c_4, Cert.ReferenceIdeal.Read.val_main_v33, Cert.ReferenceIdeal.Read.val_main_v34, Cert.ReferenceIdeal.Read.val_main_c_5, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_c_6, Cert.ReferenceIdeal.Read.val_main_v42, Cert.ReferenceIdeal.Read.val_main_v43, Cert.ReferenceIdeal.Read.val_main_c_7, Cert.ReferenceIdeal.Read.val_main_v44, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_cst_8, Cert.ReferenceIdeal.Read.val_main_v51, Cert.ReferenceIdeal.Read.val_main_v52, Cert.ReferenceIdeal.Read.val_main_v53, Cert.ReferenceIdeal.Read.val_main_v54, Cert.ReferenceIdeal.Read.val_main_v55, Cert.ReferenceIdeal.Read.val_main_v56, Cert.ReferenceIdeal.Read.val_main_v57, Cert.ReferenceIdeal.Read.val_main_v58]
  rfl

/-- After the fourth region: the convolution's output, bias added and clamped. -/
theorem conv : W7 m ρ c (Proc.devRef .tc main_v56) = Cert.ReferenceIdeal.Read.val_main_v62 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 2).trans ?_
  refine (Reg3.final (V6 m ρ) c).trans ?_
  rw [show V6 m ρ c main_v55 = Cert.ReferenceIdeal.Read.val_main_v58 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) from aggregated m ρ c,
    show V6 m ρ c main_v2 = shapeCast S1x128 (m ((c : Thread nD τ).loc main_arg9)) shapeCasts_S128_S1x128 from W6_v2 m ρ c]
  exact (Cert.ReferenceIdeal.Stages.conv_eq (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) _ (row_apply (m ((c : Thread nD τ).loc main_arg9)) _)).symm

/-- The rows of the output gathered at the test edges' two ends. -/
theorem gathered0 : W8 m ρ c (Proc.devRef .tc main_v67) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4 (W7 m ρ c) (Proc.devRef .tc main_v67) = _
  after_results_simp
  rw [conv m ρ c, W7_arg3 m ρ c]
  simp only [Cert.ReferenceIdeal.Read.val_main_v63, Cert.ReferenceIdeal.Read.val_main_v64, Cert.ReferenceIdeal.Read.val_main_c_9, Cert.ReferenceIdeal.Read.val_main_v65, Cert.ReferenceIdeal.Read.val_main_v66, Cert.ReferenceIdeal.Read.val_main_c_10, Cert.ReferenceIdeal.Read.val_main_v67, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_c_11, Cert.ReferenceIdeal.Read.val_main_v74, Cert.ReferenceIdeal.Read.val_main_v75, Cert.ReferenceIdeal.Read.val_main_c_12, Cert.ReferenceIdeal.Read.val_main_v76, Cert.ReferenceIdeal.Read.val_main_v77, Cert.ReferenceIdeal.Read.val_main_v78, Cert.ReferenceIdeal.Read.val_main_v79, Cert.ReferenceIdeal.Read.val_main_v80]
  rfl
theorem gathered1 : W8 m ρ c (Proc.devRef .tc main_v74) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4 (W7 m ρ c) (Proc.devRef .tc main_v74) = _
  after_results_simp
  rw [conv m ρ c, W7_arg3 m ρ c]
  simp only [Cert.ReferenceIdeal.Read.val_main_v63, Cert.ReferenceIdeal.Read.val_main_v64, Cert.ReferenceIdeal.Read.val_main_c_9, Cert.ReferenceIdeal.Read.val_main_v65, Cert.ReferenceIdeal.Read.val_main_v66, Cert.ReferenceIdeal.Read.val_main_c_10, Cert.ReferenceIdeal.Read.val_main_v67, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_c_11, Cert.ReferenceIdeal.Read.val_main_v74, Cert.ReferenceIdeal.Read.val_main_v75, Cert.ReferenceIdeal.Read.val_main_c_12, Cert.ReferenceIdeal.Read.val_main_v76, Cert.ReferenceIdeal.Read.val_main_v77, Cert.ReferenceIdeal.Read.val_main_v78, Cert.ReferenceIdeal.Read.val_main_v79, Cert.ReferenceIdeal.Read.val_main_v80]
  rfl

/-- After the fifth region: each test edge's inner product, as one column. -/
theorem scores : W9 m ρ c (Proc.devRef .tc main_v75) = rowInner (Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W9_arr m ρ c 2).trans ?_
  refine (Reg4.final (V8 m ρ) c).trans ?_
  rw [show V8 m ρ c main_v67 = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from gathered0 m ρ c,
    show V8 m ρ c main_v74 = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) from gathered1 m ρ c]

/-- The result: the column of scores recast to a vector, which is the reference's last stage. -/
theorem result : W10 m ρ c (Proc.devRef .tc main_v76) = Cert.ReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps5 (W9 m ρ c) (Proc.devRef .tc main_v76) = _
  after_results
  rw [scores m ρ c]
  funext i
  obtain ⟨e, rfl⟩ : ∃ e : Fin 1000000, i = ix1 e := ⟨i 0, eq_ix1 i⟩
  refine (shapeCast_a1_a_apply _ _ e).trans ?_
  exact (Cert.ReferenceIdeal.Stages.score_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) e).symm

end Cert.KernelIdeal.Chain

end
-- ==== Proof.lean ====
/-
  The certificate of the graph-convolution kernel against its reference: two linear layers with a clamp, the
  convolution's product, the message passing over the edges, the bias and clamp, and the test edges' scores.
  Both programs compute, at the extended reals, the same function of the launch arrays. The kernel's program runs the
  dense stages as five pallas_calls, each walking its rows block by block; a block of any of them is the restriction of
  a whole-array function that depends on one row of the row operand (Spec, Reg0 … Reg4), and the blocks tile the
  array. The reference takes each stage on the whole array (RefStages). The irregular part — gathers, the degree
  count, the scatter-add — is the same chain of host operations in both programs, so it is carried as it stands; the
  one difference, zeros scattered into and one added against ones scattered into, is commutativity of the sum (Chain).
  The frames of the two kernel programs are their generated frame certificates; the reference's is its run.
-/
import proofs.«156425_j60722247631463_1_alg».proof.Defs
import proofs.«156425_j60722247631463_1_alg».proof.Proof.Gen.Kernel
import proofs.«156425_j60722247631463_1_alg».proof.Proof.Gen.Kernel.Frame
import proofs.«156425_j60722247631463_1_alg».proof.Proof.Gen.KernelIdeal
import proofs.«156425_j60722247631463_1_alg».proof.Proof.Gen.KernelIdeal.Frame
import proofs.«156425_j60722247631463_1_alg».proof.Proof.Gen.ReferenceIdeal
import proofs.«156425_j60722247631463_1_alg».proof.Proof.Gen.Pre_finite_inputs
import proofs.«156425_j60722247631463_1_alg».proof.Proof.Gen.ReferenceIdeal.Run
import proofs.«156425_j60722247631463_1_alg».proof.Proof.Gen.ReferenceIdeal.Read
import proofs.«156425_j60722247631463_1_alg».proof.Proof.KRun
import proofs.«156425_j60722247631463_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the idealized kernel is the kernel's own text read at the extended reals. -/
theorem preserves : Cert.preserves_Kernel_KernelIdeal := trivial

/-- From memories agreeing on the arguments both programs end with the reference's last stage at the launch arrays:
    the kernel's program by walking its result back through its regions and host stretches, the reference by its run. -/
theorem algebraic : Cert.algebraic_KernelIdeal_ReferenceIdeal := by
  intro m ρ m' ρ' _ hagree
  refine ⟨fun c => Cert.ReferenceIdeal.Read.val_main_v82 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v82_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
